-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S500000 32) (main_arg2 : IVec S500000 32) (main_arg3 : IVec S500000 32) (main_arg4 : IVec S500000 32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_v13 main_v16
-- ==== Kernel.lean ====
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 99
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S500000, .f32⟩
  | .hbm, ⟨13, _⟩ => ⟨S_, .f32⟩
  | .hbm, ⟨14, _⟩ => ⟨S50000, .f32⟩
  | .hbm, ⟨15, _⟩ => ⟨S500000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S500000, .f32⟩
  | .hbm, ⟨22, _⟩ => ⟨S_, .f32⟩
  | .hbm, ⟨23, _⟩ => ⟨S50000, .f32⟩
  | .hbm, ⟨24, _⟩ => ⟨S500000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S_, .f32⟩
  | .hbm, ⟨39, _⟩ => ⟨S50000x128, .f32⟩
  | .hbm, ⟨40, _⟩ => ⟨S500000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x128, .f32⟩
  | .hbm, ⟨54, _⟩ => ⟨S_, .f32⟩
  | .hbm, ⟨55, _⟩ => ⟨S50000x128, .f32⟩
  | .hbm, ⟨56, _⟩ => ⟨S500000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x128, .f32⟩
  | .hbm, ⟨73, _⟩ => ⟨S_, .f32⟩
  | .hbm, ⟨74, _⟩ => ⟨S50000x128, .f32⟩
  | .hbm, ⟨75, _⟩ => ⟨S500000x1, .i32⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x128, .f32⟩
  | .hbm, ⟨89, _⟩ => ⟨S_, .f32⟩
  | .hbm, ⟨90, _⟩ => ⟨S50000x128, .f32⟩
  | .hbm, ⟨91, _⟩ => ⟨S500000x1, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_c_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S500000, .i32⟩
  | 2 => ⟨S500000, .i32⟩
  | 3 => ⟨S500000, .i32⟩
  | 4 => ⟨S500000, .i32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x128, .f32⟩
  | 20 => ⟨S_, .f32⟩
  | 21 => ⟨S50000x128, .f32⟩
  | 22 => ⟨S500000x1, .i32⟩
  | 23 => ⟨S50000x128, .f32⟩
  | 24 => ⟨S_, .f32⟩
  | 25 => ⟨S500000, .f32⟩
  | 26 => ⟨S_, .f32⟩
  | 27 => ⟨S50000, .f32⟩
  | 28 => ⟨S500000x1, .i32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x128, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .f32⟩
  | 52 => ⟨S50000x128, .f32⟩
  | 53 => ⟨S500000x1, .i32⟩
  | 54 => ⟨S50000x128, .f32⟩
  | 55 => ⟨S_, .f32⟩
  | 56 => ⟨S500000, .f32⟩
  | 57 => ⟨S_, .f32⟩
  | 58 => ⟨S50000, .f32⟩
  | 59 => ⟨S500000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x128, .f32⟩
  | 86 => ⟨S_, .f32⟩
  | 87 => ⟨S50000x128, .f32⟩
  | 88 => ⟨S500000x1, .i32⟩
  | 89 => ⟨S50000x128, .f32⟩
  | 90 => ⟨S_, .f32⟩
  | 91 => ⟨S500000, .f32⟩
  | 92 => ⟨S_, .f32⟩
  | 93 => ⟨S50000, .f32⟩
  | 94 => ⟨S500000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S_, .f32⟩
  | 118 => ⟨S50000x128, .f32⟩
  | 119 => ⟨S500000x1, .i32⟩
  | 120 => ⟨S50000x128, .f32⟩
  | 121 => ⟨S_, .f32⟩
  | 122 => ⟨S500000, .f32⟩
  | 123 => ⟨S_, .f32⟩
  | 124 => ⟨S50000, .f32⟩
  | 125 => ⟨S500000x1, .i32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x128, .f32⟩
  | 4 => ⟨S50000x128, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call0_cst : Ref sig .tc := ⟨.hbm, 74, rfl⟩
abbrev main_call0_v0 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Algebra.lean ====
/-
  Extended reals that are real numbers, and the one identity that joins the two programs.

  Every float input is finite, so every value either program computes is a real number: sums and products of reals,
  a maximum of reals, and a quotient of a real by a real that is at least one. On real numbers the fused layer

      2 * (x . Ws) + (p + q) . Wn + 2 * b

  is the sum of the two per-edge-type layers

      (x . Ws + p . Wn + b) + (x . Ws + q . Wn + b),

  entry by entry: the product with Wn distributes over p + q, which is where finiteness is used (on the extended
  reals an infinity of each sign among the summands would break it).
-/
import Idealize.ShloMosaic.PureOps.Ideal

noncomputable section

open scoped BigOperators

namespace Cert.Hetero

open Idealize.ShloMosaic

/-- An extended real that is a real number. -/
def IsReal (a : EReal) : Prop := ∃ r : ℝ, a = (r : EReal)

theorem isReal_coe (r : ℝ) : IsReal (r : EReal) := ⟨r, rfl⟩
theorem isReal_zero : IsReal 0 := ⟨0, rfl⟩
theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

/-- A finite sum of real numbers is a real number. -/
theorem isReal_sum {κ : Type} (s : Finset κ) (f : κ → EReal) (hf : ∀ k ∈ s, IsReal (f k)) : IsReal (∑ k ∈ s, f k) := by
  classical
  induction s using Finset.induction_on with
  | empty => simpa using isReal_zero
  | insert a s ha ih =>
    rw [Finset.sum_insert ha]
    exact (hf a (Finset.mem_insert_self a s)).add (ih fun k hk => hf k (Finset.mem_insert_of_mem hk))

/-- The sum of the coercions is the coercion of the sum. -/
theorem coe_sum {κ : Type} (s : Finset κ) (f : κ → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A real number divided by a real number that is at least one is a real number. -/
theorem IsReal.div {a b : EReal} (ha : IsReal a) (hb : IsReal b) (h1 : 1 ≤ b) : IsReal (Ideal.div a b) := by
  obtain ⟨r, rfl⟩ := ha; obtain ⟨s, rfl⟩ := hb
  have hs : (1 : ℝ) ≤ s := by exact_mod_cast h1
  have hs0 : s ≠ 0 := by linarith
  rw [Ideal.div_coe hs0]
  exact (isReal_coe r).mul (isReal_coe _)

/-- The pattern of 2.0 denotes the real number two. -/
theorem ofBits_two : Ideal.ofBits .f32 0x40000000#32 = ((2 : ℝ) : EReal) := by
  simp [Ideal.ofBits, Ideal.ieee, -EReal.coe_mul]; norm_num

/-- The pattern of 1.0 denotes the real number one. -/
theorem ofBits_one : Ideal.ofBits .f32 0x3F800000#32 = 1 := by
  simp [Ideal.ofBits, Ideal.ieee, -EReal.coe_mul]; norm_num

/-- The pattern of +0.0 denotes zero. -/
theorem ofBits_zero : Ideal.ofBits .f32 0x00000000#32 = 0 := by
  simp [Ideal.ofBits, Ideal.ieee]

/-- One entry of the fused layer is the sum of the two per-edge-type entries, when everything in sight is real:
    twice the self term, the neighbour term of the summed aggregates, and twice the bias. -/
theorem fused_entry {κ : Type} [Fintype κ] (x ws p q wn : κ → EReal) (b : EReal)
    (hx : ∀ k, IsReal (x k)) (hws : ∀ k, IsReal (ws k)) (hp : ∀ k, IsReal (p k)) (hq : ∀ k, IsReal (q k))
    (hwn : ∀ k, IsReal (wn k)) (hb : IsReal b) :
    ((2 : ℝ) : EReal) * (∑ k, x k * ws k) + (∑ k, (p k + q k) * wn k) + ((2 : ℝ) : EReal) * b
      = ((∑ k, x k * ws k) + (∑ k, p k * wn k) + b) + ((∑ k, x k * ws k) + (∑ k, q k * wn k) + b) := by
  choose x' hx' using hx
  choose ws' hws' using hws
  choose p' hp' using hp
  choose q' hq' using hq
  choose wn' hwn' using hwn
  obtain ⟨b', rfl⟩ := hb
  simp only [hx', hws', hp', hq', hwn', ← EReal.coe_mul, ← EReal.coe_add, coe_sum]
  congr 1
  simp only [add_mul, Finset.sum_add_distrib]
  ring

/-- One entry of a layer is a real number when everything in sight is. -/
theorem layer_entry_isReal {κ : Type} [Fintype κ] (x ws p wn : κ → EReal) (b : EReal)
    (hx : ∀ k, IsReal (x k)) (hws : ∀ k, IsReal (ws k)) (hp : ∀ k, IsReal (p k))
    (hwn : ∀ k, IsReal (wn k)) (hb : IsReal b) :
    IsReal ((∑ k, x k * ws k) + (∑ k, p k * wn k) + b) :=
  ((isReal_sum _ _ fun k _ => (hx k).mul (hws k)).add (isReal_sum _ _ fun k _ => (hp k).mul (hwn k))).add hb

end Cert.Hetero

end
-- ==== Proof.Spec.lean ====
/-
  The two layers as functions of whole arrays, entry by entry, on the extended reals.

  Node features are 50000 x 128, weights 128 x 128, a bias 128. Entry (r, c) of a product is row r of the features
  against column c of the weights. The fused layer is twice the self product, plus the neighbour product of ONE
  aggregate, plus twice the bias; the split layer is the sum of two per-edge-type layers, each a self product plus the
  neighbour product of its own aggregate plus the bias. When every entry in sight is a real number the fused layer at
  the entrywise sum of two aggregates is the split layer at the two aggregates (the neighbour product distributes over
  the sum), and either is again real.
-/
import proofs.«132133_j31224412242363_1_alg».proof.Proof.Algebra
import Idealize.ShloMosaic.Lib.ValueIdx

noncomputable section

open scoped BigOperators

namespace Cert.Hetero

open Idealize.ShloMosaic

/-- Node features: 50000 rows of 128. -/
abbrev SN : Shape := ⟨2, ![50000, 128]⟩
/-- A weight matrix. -/
abbrev SW : Shape := ⟨2, ![128, 128]⟩
/-- A bias vector. -/
abbrev SB : Shape := ⟨1, ![128]⟩

/-- Entry `k` of the row of entry `i`. -/
abbrev rowAt (i : SN.Idx) (k : Fin 128) : SN.Idx := fun a => match a with
  | ⟨0, _⟩ => ⟨(i 0).val, (i 0).isLt⟩
  | ⟨1, _⟩ => ⟨k.val, k.isLt⟩
/-- Entry `k` of the weight column of entry `i`. -/
abbrev colAt (i : SN.Idx) (k : Fin 128) : SW.Idx := fun a => match a with
  | ⟨0, _⟩ => ⟨k.val, k.isLt⟩
  | ⟨1, _⟩ => ⟨(i 1).val, (i 1).isLt⟩
/-- The bias entry of the column of entry `i`. -/
abbrev biasAt (i : SN.Idx) : SB.Idx := fun a => match a with
  | ⟨0, _⟩ => ⟨(i 1).val, (i 1).isLt⟩

/-- Features times weights, entry by entry. -/
def prod (x : SN.Idx → EReal) (w : SW.Idx → EReal) : SN.Idx → EReal :=
  fun i => ∑ k : Fin 128, x (rowAt i k) * w (colAt i k)

/-- The fused layer: twice the self product, the neighbour product of one aggregate, twice the bias. The factor is the
    pattern of 2.0 as both kernel bodies spell it. -/
def fused (x p : SN.Idx → EReal) (ws wn : SW.Idx → EReal) (b : SB.Idx → EReal) : SN.Idx → EReal :=
  fun i => Ideal.ofBits .f32 0x40000000#32 * prod x ws i + prod p wn i + Ideal.ofBits .f32 0x40000000#32 * b (biasAt i)

/-- The split layer: one layer per edge type, each with its own aggregate, added. -/
def split (x p q : SN.Idx → EReal) (ws wn : SW.Idx → EReal) (b : SB.Idx → EReal) : SN.Idx → EReal :=
  fun i => (prod x ws i + prod p wn i + b (biasAt i)) + (prod x ws i + prod q wn i + b (biasAt i))

/-- The rectifier: the maximum with the pattern of +0.0. -/
def relu (y : SN.Idx → EReal) : SN.Idx → EReal := fun i => max (y i) (Ideal.ofBits .f32 0x00000000#32)

/-- Every entry of an array is a real number. -/
def AllReal {ι : Type} (x : ι → EReal) : Prop := ∀ i, IsReal (x i)

theorem prod_allReal {x : SN.Idx → EReal} {w : SW.Idx → EReal} (hx : AllReal x) (hw : AllReal w) : AllReal (prod x w) :=
  fun _ => isReal_sum _ _ fun k _ => (hx _).mul (hw _)

theorem split_allReal {x p q : SN.Idx → EReal} {ws wn : SW.Idx → EReal} {b : SB.Idx → EReal}
    (hx : AllReal x) (hp : AllReal p) (hq : AllReal q) (hws : AllReal ws) (hwn : AllReal wn) (hb : AllReal b) :
    AllReal (split x p q ws wn b) :=
  fun i => (((prod_allReal hx hws i).add (prod_allReal hp hwn i)).add (hb _)).add
    (((prod_allReal hx hws i).add (prod_allReal hq hwn i)).add (hb _))

theorem relu_allReal {y : SN.Idx → EReal} (hy : AllReal y) : AllReal (relu y) :=
  fun i => (hy i).max (by rw [ofBits_zero]; exact isReal_zero)

/-- On real entries the fused layer at the entrywise sum of two aggregates is the split layer at the two. -/
theorem fused_add_eq_split {x p q : SN.Idx → EReal} {ws wn : SW.Idx → EReal} {b : SB.Idx → EReal}
    (hx : AllReal x) (hp : AllReal p) (hq : AllReal q) (hws : AllReal ws) (hwn : AllReal wn) (hb : AllReal b) :
    fused x (fun i => p i + q i) ws wn b = split x p q ws wn b := by
  funext i
  unfold fused split prod
  rw [ofBits_two]
  exact fused_entry (fun k => x (rowAt i k)) (fun k => ws (colAt i k)) (fun k => p (rowAt i k)) (fun k => q (rowAt i k))
    (fun k => wn (colAt i k)) (b (biasAt i)) (fun _ => hx _) (fun _ => hws _) (fun _ => hp _) (fun _ => hq _) (fun _ => hwn _) (hb _)

end Cert.Hetero

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.Agg.lean ====
/-
  The mean aggregation both programs share, and why it keeps real numbers real.

  For one edge type with source words `src` and destination words `dst`: every edge gathers the feature row its
  source word names (a negative word is first shifted up by the number of nodes, and the row index is clamped into
  range), the gathered rows are summed per destination node (an edge whose destination word names no node is dropped),
  and each node's sum is divided by its in-degree, taken as at least one. Both programs spell exactly this chain of
  host operations, so it is carried here as ONE function of the features, the two index arrays and the degrees, and
  never opened except to see that it maps real entries to real entries: a gathered entry is an entry of the source,
  a segment sum adds finitely many of them to zero, and the divisor is a real number that is at least one.
-/
import proofs.«132133_j31224412242363_1_alg».proof.KernelIdeal
import proofs.«132133_j31224412242363_1_alg».proof.Proof.Spec
import proofs.«132133_j31224412242363_1_alg».proof.Proof.LibSegmentSum
import Idealize.ShloMosaic.Lib.Pipeline.Value

noncomputable section

open scoped BigOperators

namespace Cert.Hetero

open Idealize.ShloMosaic Idealize.ShloMosaic.ValueIdx Cert.KernelIdeal

variable [Cert.KernelIdeal.Facts]
open Cert.KernelIdeal.Facts₀ Cert.KernelIdeal.Facts

/-- The in-degree of every node under the destination words `dst`, taken as at least one: ones summed per destination,
    then the maximum with one. -/
def degree (dst : IVec S500000 32) : FVec Ideal S50000 .f32 :=
  maximumf (Host.scatterAdd scatter_S50000_S500000x1_S500000_n_0_0_1 (broadcastInDim S50000 ![] bcast_S_S50000 (constant (F := Ideal) S_ .f32 0x00000000#32)) (broadcastInDim S500000x1 ![0] bcast_S500000_S500000x1_0 dst) (broadcastInDim S500000 ![] bcast_S_S500000 (constant (F := Ideal) S_ .f32 0x3F800000#32))) (broadcastInDim S50000 ![] bcast_S_S50000 (constant (F := Ideal) S_ .f32 0x3F800000#32))

/-- The mean aggregate of the features `x` over one edge type: gathered source rows summed per destination, divided
    by the degrees `deg` spread along each row. -/
def meanAgg (x : FVec Ideal S50000x128 .f32) (src dst : IVec S500000 32) (deg : FVec Ideal S50000 .f32) : FVec Ideal S50000x128 .f32 :=
  Host.divf (Host.scatterAdd scatter_S50000x128_S500000x1_S500000x128_1_0_0_1 (broadcastInDim S50000x128 ![] bcast_S_S50000x128 (constant (F := Ideal) S_ .f32 0x00000000#32)) (broadcastInDim S500000x1 ![0] bcast_S500000_S500000x1_0 dst) (Host.gather gather_S50000x128_S500000x1_S500000x128_1_0_n_n_0_1_1128 x (broadcastInDim S500000x1 ![0] bcast_S500000_S500000x1_0 (select (cmpi .slt src (broadcastInDim S500000 ![] bcast_S_S500000 (constantI S_ 32 0#32))) (addi src (broadcastInDim S500000 ![] bcast_S_S500000 (constantI S_ 32 50000#32))) src)))) (broadcastInDim S50000x128 ![0, 1] bcast_S50000x1_S50000x128_0_1 (broadcastInDim S50000x1 ![0] bcast_S50000_S50000x1_0 deg))

/-- The summed ones at a node: zero plus a one for every edge whose destination word names the node. -/
theorem degree_sum_isReal (dst : IVec S500000 32) (i : S50000.Idx) :
    IsReal (Host.scatterAdd (F := Ideal) (φ := .f32) scatter_S50000_S500000x1_S500000_n_0_0_1 (broadcastInDim S50000 ![] bcast_S_S50000 (constant (F := Ideal) S_ .f32 0x00000000#32)) (broadcastInDim S500000x1 ![0] bcast_S500000_S500000x1_0 dst) (broadcastInDim S500000 ![] bcast_S_S500000 (constant (F := Ideal) S_ .f32 0x3F800000#32)) i) := by
  obtain ⟨p, rfl⟩ : ∃ p : Fin 50000, i = ix1 p := ⟨i 0, eq_ix1 i⟩
  rw [Cert.LibSegmentSum.scatterAdd_seg1 scatter_S50000_S500000x1_S500000_n_0_0_1 rfl rfl rfl rfl]
  refine IsReal.add ?_ (isReal_sum _ _ fun e _ => ?_)
  · show IsReal (Ideal.ofBits .f32 0x00000000#32)
    rw [ofBits_zero]; exact isReal_zero
  · show IsReal (Ideal.ofBits .f32 0x3F800000#32)
    rw [ofBits_one]; exact isReal_one

/-- A degree is a real number. -/
theorem degree_isReal (dst : IVec S500000 32) : AllReal (degree dst) := fun i => by
  show IsReal (max _ (Ideal.ofBits .f32 0x3F800000#32))
  refine (degree_sum_isReal dst i).max ?_
  rw [ofBits_one]; exact isReal_one

/-- A degree is at least one. -/
theorem one_le_degree (dst : IVec S500000 32) (i : S50000.Idx) : 1 ≤ degree dst i := by
  show 1 ≤ max _ (Ideal.ofBits .f32 0x3F800000#32)
  rw [ofBits_one]; exact le_max_right _ _

/-- The mean aggregate of real features, by real degrees that are at least one, is real. -/
theorem meanAgg_allReal {x : FVec Ideal S50000x128 .f32} (hx : AllReal x) (src dst : IVec S500000 32)
    {deg : FVec Ideal S50000 .f32} (hdeg : AllReal deg) (hdeg1 : ∀ i, 1 ≤ deg i) : AllReal (meanAgg x src dst deg) := fun i => by
  show IsReal (Ideal.div _ _)
  refine IsReal.div ?_ (hdeg _) (hdeg1 _)
  obtain ⟨p, q, rfl⟩ : ∃ (p : Fin 50000) (q : Fin 128), i = ix2 p q := ⟨i 0, i 1, eq_ix2 i⟩
  rw [Cert.LibSegmentSum.scatterAdd_segRows scatter_S50000x128_S500000x1_S500000x128_1_0_0_1 rfl rfl rfl rfl]
  refine IsReal.add ?_ (isReal_sum _ _ fun e _ => ?_)
  · show IsReal (Ideal.ofBits .f32 0x00000000#32)
    rw [ofBits_zero]; exact isReal_zero
  · rw [Cert.LibSegmentSum.gather_rows gather_S50000x128_S500000x1_S500000x128_1_0_n_n_0_1_1128 rfl rfl rfl rfl rfl rfl rfl _ _ _ _ (by decide)]
    exact hx _

end Cert.Hetero

end
-- ==== Proof.Forms.lean ====
/-
  Both programs as functions of the eleven arguments, and their equality on real inputs.

  The kernel program computes the degrees of both edge types once, then twice runs the fused layer at the entrywise
  sum of the two mean aggregates (rectified the first time). The reference twice runs the split layer at the two
  mean aggregates (rectified the first time). With real features, weights and biases: the aggregates of real features
  are real, so the fused layer at their sum is the split layer at the pair, and that hidden layer is again real, so
  the same holds for the second layer.
-/
import proofs.«132133_j31224412242363_1_alg».proof.Proof.Agg

noncomputable section

open scoped BigOperators

namespace Cert.Hetero

open Idealize.ShloMosaic Cert.KernelIdeal

variable [Cert.KernelIdeal.Facts]

/-- The entrywise sum of the two edge types' mean aggregates of `x`. -/
def aggSum (x : SN.Idx → EReal) (s0 d0 s1 d1 : IVec S500000 32) : SN.Idx → EReal :=
  fun i => meanAgg x s0 d0 (degree d0) i + meanAgg x s1 d1 (degree d1) i

/-- The kernel program's hidden layer. -/
def hiddenK (h : SN.Idx → EReal) (s0 d0 s1 d1 : IVec S500000 32) (ws wn : SW.Idx → EReal) (b : SB.Idx → EReal) : SN.Idx → EReal :=
  relu (fused h (aggSum h s0 d0 s1 d1) ws wn b)

/-- The kernel program's result. -/
def kernelForm (h : SN.Idx → EReal) (s0 d0 s1 d1 : IVec S500000 32) (ws1 wn1 : SW.Idx → EReal) (b1 : SB.Idx → EReal)
    (ws2 wn2 : SW.Idx → EReal) (b2 : SB.Idx → EReal) : SN.Idx → EReal :=
  fused (hiddenK h s0 d0 s1 d1 ws1 wn1 b1) (aggSum (hiddenK h s0 d0 s1 d1 ws1 wn1 b1) s0 d0 s1 d1) ws2 wn2 b2

/-- The reference's hidden layer. -/
def hiddenR (h : SN.Idx → EReal) (s0 d0 s1 d1 : IVec S500000 32) (ws wn : SW.Idx → EReal) (b : SB.Idx → EReal) : SN.Idx → EReal :=
  relu (split h (meanAgg h s0 d0 (degree d0)) (meanAgg h s1 d1 (degree d1)) ws wn b)

/-- The reference's result. -/
def refForm (h : SN.Idx → EReal) (s0 d0 s1 d1 : IVec S500000 32) (ws1 wn1 : SW.Idx → EReal) (b1 : SB.Idx → EReal)
    (ws2 wn2 : SW.Idx → EReal) (b2 : SB.Idx → EReal) : SN.Idx → EReal :=
  split (hiddenR h s0 d0 s1 d1 ws1 wn1 b1) (meanAgg (hiddenR h s0 d0 s1 d1 ws1 wn1 b1) s0 d0 (degree d0))
    (meanAgg (hiddenR h s0 d0 s1 d1 ws1 wn1 b1) s1 d1 (degree d1)) ws2 wn2 b2

/-- One layer: on real features, weights and bias the fused layer at the summed aggregates is the split layer at the
    two aggregates. -/
theorem layer_eq {x : SN.Idx → EReal} (hx : AllReal x) (s0 d0 s1 d1 : IVec S500000 32) {ws wn : SW.Idx → EReal} {b : SB.Idx → EReal}
    (hws : AllReal ws) (hwn : AllReal wn) (hb : AllReal b) :
    fused x (aggSum x s0 d0 s1 d1) ws wn b = split x (meanAgg x s0 d0 (degree d0)) (meanAgg x s1 d1 (degree d1)) ws wn b :=
  fused_add_eq_split hx (meanAgg_allReal hx s0 d0 (degree_isReal d0) (one_le_degree d0))
    (meanAgg_allReal hx s1 d1 (degree_isReal d1) (one_le_degree d1)) hws hwn hb

/-- The two programs' results agree when every float argument is real. -/
theorem kernelForm_eq_refForm {h : SN.Idx → EReal} (hh : AllReal h) (s0 d0 s1 d1 : IVec S500000 32)
    {ws1 wn1 : SW.Idx → EReal} {b1 : SB.Idx → EReal} {ws2 wn2 : SW.Idx → EReal} {b2 : SB.Idx → EReal}
    (hws1 : AllReal ws1) (hwn1 : AllReal wn1) (hb1 : AllReal b1) (hws2 : AllReal ws2) (hwn2 : AllReal wn2) (hb2 : AllReal b2) :
    kernelForm h s0 d0 s1 d1 ws1 wn1 b1 ws2 wn2 b2 = refForm h s0 d0 s1 d1 ws1 wn1 b1 ws2 wn2 b2 := by
  have e1 : hiddenK h s0 d0 s1 d1 ws1 wn1 b1 = hiddenR h s0 d0 s1 d1 ws1 wn1 b1 := by
    unfold hiddenK hiddenR
    rw [layer_eq hh s0 d0 s1 d1 hws1 hwn1 hb1]
  have hr : AllReal (hiddenR h s0 d0 s1 d1 ws1 wn1 b1) :=
    relu_allReal (split_allReal hh (meanAgg_allReal hh s0 d0 (degree_isReal d0) (one_le_degree d0))
      (meanAgg_allReal hh s1 d1 (degree_isReal d1) (one_le_degree d1)) hws1 hwn1 hb1)
  unfold kernelForm refForm
  rw [e1]
  exact layer_eq hr s0 d0 s1 d1 hws2 hwn2 hb2

end Cert.Hetero

end
-- ==== Proof.Payload.lean ====
/-
  What each kernel body stores, entry by entry, at the ideal values.

  Both bodies work on a block of 5000 node rows: the block of features and the block of aggregates are cast to the
  narrow format (the identity on extended reals), each is multiplied into its whole 128 x 128 weight matrix (a
  product into a zero accumulator is the plain sum over the contracted axis), the self product is doubled, the
  neighbour product added, the doubled bias row spread over the rows and added; the first body then takes the maximum
  with zero. So entry (r, c) of what a body stores is the fused layer's entry for row r of the blocks and column c of
  the weights.
-/
import proofs.«132133_j31224412242363_1_alg».proof.Proof.Gen.KernelIdeal.Skeleton
import proofs.«132133_j31224412242363_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic

/-- Entry `k` of the block row of entry `j`. -/
abbrev rowB (j : S5000x128.Idx) (k : Fin 128) : S5000x128.Idx := fun a => match a with
  | ⟨0, _⟩ => ⟨(j 0).val, (j 0).isLt⟩
  | ⟨1, _⟩ => ⟨k.val, k.isLt⟩
/-- Entry `k` of the weight column of entry `j`. -/
abbrev colB (j : S5000x128.Idx) (k : Fin 128) : S128x128.Idx := fun a => match a with
  | ⟨0, _⟩ => ⟨k.val, k.isLt⟩
  | ⟨1, _⟩ => ⟨(j 1).val, (j 1).isLt⟩
/-- The bias row's entry for the column of entry `j`. -/
abbrev biasB (j : S5000x128.Idx) : S1x128.Idx := fun a => match a with
  | ⟨0, _⟩ => ⟨0, Nat.one_pos⟩
  | ⟨1, _⟩ => ⟨(j 1).val, (j 1).isLt⟩

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight matrix into the zero accumulator, at an entry: the row against the column. -/
theorem matmul_blk (a : FVec Ideal S5000x128 .bf16) (w : FVec Ideal S128x128 .bf16) (j : S5000x128.Idx) :
    matmul dot_S5000x128_S128x128_S5000x128_1_0_0_1_n_n none a w (constant (F := Ideal) S5000x128 .f32 0x00000000#32) j
      = ∑ k : Fin 128, (a (rowB j k) : EReal) * (w (colB j k) : EReal) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowB j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = colB j k := funext fun a => Fin.ext (by
    match a with
    | ⟨0, _⟩ => exact (rhs_blk_0 _ _).trans hk
    | ⟨1, _⟩ => exact rhs_blk_1 _ _)
  rw [el, er]

/-- The doubled bias row spread over the block, at an entry. -/
theorem bias_blk (y : FVec Ideal S1x128 .f32) (j : S5000x128.Idx) :
    broadcastTo S5000x128 y broadcasts_S1x128_S5000x128 j = y (biasB j) :=
  broadcastTo_apply y broadcasts_S1x128_S5000x128 j (biasB j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

/-- The first body's stored block at an entry: the fused entry, then the maximum with zero. -/
theorem pay0_apply (x0 x1 : Vec Ideal S5000x128 .f32) (x2 x3 : Vec Ideal S128x128 .f32) (x4 : Vec Ideal S1x128 .f32) (j : S5000x128.Idx) :
    k0_pay1 (F := Ideal) x0 x1 x2 x3 x4 j
      = max (Ideal.ofBits .f32 0x40000000#32 * (∑ k : Fin 128, (x0 (rowB j k) : EReal) * (x2 (colB j k) : EReal))
              + (∑ k : Fin 128, (x1 (rowB j k) : EReal) * (x3 (colB j k) : EReal))
              + Ideal.ofBits .f32 0x40000000#32 * (x4 (biasB j) : EReal))
            (Ideal.ofBits .f32 0x00000000#32) := by
  unfold k0_pay1
  simp only [shapeCast_self]
  show max ((Ideal.ofBits .f32 0x40000000#32 * matmul dot_S5000x128_S128x128_S5000x128_1_0_0_1_n_n none (truncf .bf16 x0 bitsLt_bf16_f32) (truncf .bf16 x2 bitsLt_bf16_f32) (constant (F := Ideal) S5000x128 .f32 0x00000000#32) j
      + matmul dot_S5000x128_S128x128_S5000x128_1_0_0_1_n_n none (truncf .bf16 x1 bitsLt_bf16_f32) (truncf .bf16 x3 bitsLt_bf16_f32) (constant (F := Ideal) S5000x128 .f32 0x00000000#32) j)
      + broadcastTo S5000x128 (mulf (broadcast S1x128 (Scalar.ofBits (F := Ideal) .f32 0x40000000#32)) x4) broadcasts_S1x128_S5000x128 j) (Ideal.ofBits .f32 0x00000000#32) = _
  rw [matmul_blk, matmul_blk, bias_blk]
  rfl

/-- The second body's stored block at an entry: the fused entry. -/
theorem pay1_apply (x0 x1 : Vec Ideal S5000x128 .f32) (x2 x3 : Vec Ideal S128x128 .f32) (x4 : Vec Ideal S1x128 .f32) (j : S5000x128.Idx) :
    k1_pay1 (F := Ideal) x0 x1 x2 x3 x4 j
      = Ideal.ofBits .f32 0x40000000#32 * (∑ k : Fin 128, (x0 (rowB j k) : EReal) * (x2 (colB j k) : EReal))
              + (∑ k : Fin 128, (x1 (rowB j k) : EReal) * (x3 (colB j k) : EReal))
              + Ideal.ofBits .f32 0x40000000#32 * (x4 (biasB j) : EReal) := by
  unfold k1_pay1
  simp only [shapeCast_self]
  show (Ideal.ofBits .f32 0x40000000#32 * matmul dot_S5000x128_S128x128_S5000x128_1_0_0_1_n_n none (truncf .bf16 x0 bitsLt_bf16_f32) (truncf .bf16 x2 bitsLt_bf16_f32) (constant (F := Ideal) S5000x128 .f32 0x00000000#32) j
      + matmul dot_S5000x128_S128x128_S5000x128_1_0_0_1_n_n none (truncf .bf16 x1 bitsLt_bf16_f32) (truncf .bf16 x3 bitsLt_bf16_f32) (constant (F := Ideal) S5000x128 .f32 0x00000000#32) j)
      + broadcastTo S5000x128 (mulf (broadcast S1x128 (Scalar.ofBits (F := Ideal) .f32 0x40000000#32)) x4) broadcasts_S1x128_S5000x128 j = _
  rw [matmul_blk, matmul_blk, bias_blk]
  rfl

/-! ## The layers of whole arrays, as each region computes them -/

open Cert.Hetero

/-- The bias row's entry for the column of an array entry. -/
abbrev biasRow (i : S50000x128.Idx) : S1x128.Idx := fun a => match a with
  | ⟨0, _⟩ => ⟨0, Nat.one_pos⟩
  | ⟨1, _⟩ => ⟨(i 1).val, (i 1).isLt⟩

/-- A bias kept as a one-row matrix, read as a vector. -/
def rowBias (b2 : S1x128.Idx → EReal) : SB.Idx → EReal := fun j => b2 (fun a => match a with
  | ⟨0, _⟩ => ⟨0, Nat.one_pos⟩
  | ⟨1, _⟩ => ⟨(j 0).val, (j 0).isLt⟩)

/-- What the first region leaves in its result array: the fused layer, rectified. -/
def layer0 (x p : S50000x128.Idx → EReal) (ws wn : S128x128.Idx → EReal) (b2 : S1x128.Idx → EReal) : S50000x128.Idx → EReal :=
  relu (fused x p ws wn (rowBias b2))

/-- What the second region leaves in its result array: the fused layer. -/
def layer1 (x p : S50000x128.Idx → EReal) (ws wn : S128x128.Idx → EReal) (b2 : S1x128.Idx → EReal) : S50000x128.Idx → EReal :=
  fused x p ws wn (rowBias b2)

theorem layer0_apply (x p : S50000x128.Idx → EReal) (ws wn : S128x128.Idx → EReal) (b2 : S1x128.Idx → EReal) (i : S50000x128.Idx) :
    layer0 x p ws wn b2 i
      = max (Ideal.ofBits .f32 0x40000000#32 * (∑ k : Fin 128, x (rowAt i k) * ws (colAt i k))
              + (∑ k : Fin 128, p (rowAt i k) * wn (colAt i k))
              + Ideal.ofBits .f32 0x40000000#32 * b2 (biasRow i))
            (Ideal.ofBits .f32 0x00000000#32) := rfl

theorem layer1_apply (x p : S50000x128.Idx → EReal) (ws wn : S128x128.Idx → EReal) (b2 : S1x128.Idx → EReal) (i : S50000x128.Idx) :
    layer1 x p ws wn b2 i
      = Ideal.ofBits .f32 0x40000000#32 * (∑ k : Fin 128, x (rowAt i k) * ws (colAt i k))
              + (∑ k : Fin 128, p (rowAt i k) * wn (colAt i k))
              + Ideal.ofBits .f32 0x40000000#32 * b2 (biasRow i) := rfl

end Cert.KernelIdeal.Payload

end
-- ==== Proof.Blocks0.lean ====
/-
  The first region's result array after its run: the rectified fused layer of the arrays the region finds.

  The grid has ten points; point t works on node rows 5000 t to 5000 t + 4999. Its feature block and its aggregate
  block are those rows of their arrays, the two weight matrices and the bias row are whole at every point, and the
  block it writes back is those rows of the result. What the body stores at (r, c) is the layer's entry for row r of
  the blocks, that is for array row 5000 t + r; so every point writes back its rows of ONE whole-array function, and
  the ten blocks cover the array.
-/
import proofs.«132133_j31224412242363_1_alg».proof.Proof.Gen.KernelIdeal.Frame
import proofs.«132133_j31224412242363_1_alg».proof.Proof.Payload
import Idealize.ShloMosaic.Lib.Pipeline.Value

set_option maxRecDepth 16384

noncomputable section

open scoped BigOperators

namespace Cert.KernelIdeal.Blocks0

open Cert.KernelIdeal Cert.KernelIdeal.Gen Cert.KernelIdeal.Payload Cert.Hetero
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row t, everything
    else at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is its rows of the layer of the arrays as the region finds them. -/
theorem flushed_eq (c : Dev nD) (t : Fin cfg0.N) :
    (dat0 V c).flushed 5 t = ((cfg0.win 5).blk t).view.read (Elt Ideal)
      (layer0 (V c main_arg0) (V c main_v38) (V c main_arg5) (V c main_arg6) (V c main_v39)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = layer0 (V c main_arg0) (V c main_v38) (V c main_arg5) (V c main_arg6) (V c main_v39) (((cfg0.win 5).blk t).view.emb j)
  refine (pay0_apply (iblk0 V c 0 t) (iblk0 V c 1 t) (iblk0 V c 2 t) (iblk0 V c 3 t) (iblk0 V c 4 t) j).trans ?_
  rw [layer0_apply]
  have hj0 : (j 0).val < 5000 := (j 0).isLt
  have hj1 : (j 1).val < 128 := (j 1).isLt
  have r0 : ∀ k : Fin 128, (iblk0 V c 0 t (rowB j k) : EReal) = V c main_arg0 (rowAt (((cfg0.win 5).blk t).view.emb j) k) := fun k => by
    show V c main_arg0 (((cfg0.win 0).blk t).view.emb (rowB j k)) = _
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have r1 : ∀ k : Fin 128, (iblk0 V c 1 t (rowB j k) : EReal) = V c main_v38 (rowAt (((cfg0.win 5).blk t).view.emb j) k) := fun k => by
    show V c main_v38 (((cfg0.win 1).blk t).view.emb (rowB j k)) = _
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have r2 : ∀ k : Fin 128, (iblk0 V c 2 t (colB j k) : EReal) = V c main_arg5 (colAt (((cfg0.win 5).blk t).view.emb j) k) := fun k => by
    show V c main_arg5 (((cfg0.win 2).blk t).view.emb (colB j k)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have r3 : ∀ k : Fin 128, (iblk0 V c 3 t (colB j k) : EReal) = V c main_arg6 (colAt (((cfg0.win 5).blk t).view.emb j) k) := fun k => by
    show V c main_arg6 (((cfg0.win 3).blk t).view.emb (colB j k)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have r4 : (iblk0 V c 4 t (biasB j) : EReal) = V c main_v39 (biasRow (((cfg0.win 5).blk t).view.emb j)) := by
    show V c main_v39 (((cfg0.win 4).blk t).view.emb (biasB j)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  simp only [r0, r1, r2, r3, r4]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v40).slice (win0_5.rect t)).set ↔ _
  rw [View.set_slice_whole, Rect.mem_set_unit]
  exact Iff.rfl

/-- Every entry of the array lies in the block of the point its row falls in. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]
    omega

/-- The result array after the region's run is the layer of the arrays the region finds. -/
theorem final (c : Dev nD) :
    (dat0 V c).arrAt 5 cfg0.N = layer0 (V c main_arg0) (V c main_v38) (V c main_arg5) (V c main_arg6) (V c main_v39) :=
  (dat0 V c).arrAt_eq_of_cover 5 _ (fun t _ => flushed_eq V c t) cover

end Cert.KernelIdeal.Blocks0

end
-- ==== Proof.Blocks1.lean ====
/-
  The second region's result array after its run: the fused layer of the arrays the region finds.

  The grid has ten points; point t works on node rows 5000 t to 5000 t + 4999. Its feature block and its aggregate
  block are those rows of their arrays, the two weight matrices and the bias row are whole at every point, and the
  block it writes back is those rows of the result. What the body stores at (r, c) is the layer's entry for row r of
  the blocks, that is for array row 5000 t + r; so every point writes back its rows of ONE whole-array function, and
  the ten blocks cover the array.
-/
import proofs.«132133_j31224412242363_1_alg».proof.Proof.Gen.KernelIdeal.Frame
import proofs.«132133_j31224412242363_1_alg».proof.Proof.Payload
import Idealize.ShloMosaic.Lib.Pipeline.Value

set_option maxRecDepth 16384

noncomputable section

open scoped BigOperators

namespace Cert.KernelIdeal.Blocks1

open Cert.KernelIdeal Cert.KernelIdeal.Gen Cert.KernelIdeal.Payload Cert.Hetero
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row t, everything
    else at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is its rows of the layer of the arrays as the region finds them. -/
theorem flushed_eq (c : Dev nD) (t : Fin cfg1.N) :
    (dat1 V c).flushed 5 t = ((cfg1.win 5).blk t).view.read (Elt Ideal)
      (layer1 (V c main_v40) (V c main_v67) (V c main_arg8) (V c main_arg9) (V c main_v68)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = layer1 (V c main_v40) (V c main_v67) (V c main_arg8) (V c main_arg9) (V c main_v68) (((cfg1.win 5).blk t).view.emb j)
  refine (pay1_apply (iblk1 V c 0 t) (iblk1 V c 1 t) (iblk1 V c 2 t) (iblk1 V c 3 t) (iblk1 V c 4 t) j).trans ?_
  rw [layer1_apply]
  have hj0 : (j 0).val < 5000 := (j 0).isLt
  have hj1 : (j 1).val < 128 := (j 1).isLt
  have r0 : ∀ k : Fin 128, (iblk1 V c 0 t (rowB j k) : EReal) = V c main_v40 (rowAt (((cfg1.win 5).blk t).view.emb j) k) := fun k => by
    show V c main_v40 (((cfg1.win 0).blk t).view.emb (rowB j k)) = _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have r1 : ∀ k : Fin 128, (iblk1 V c 1 t (rowB j k) : EReal) = V c main_v67 (rowAt (((cfg1.win 5).blk t).view.emb j) k) := fun k => by
    show V c main_v67 (((cfg1.win 1).blk t).view.emb (rowB j k)) = _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have r2 : ∀ k : Fin 128, (iblk1 V c 2 t (colB j k) : EReal) = V c main_arg8 (colAt (((cfg1.win 5).blk t).view.emb j) k) := fun k => by
    show V c main_arg8 (((cfg1.win 2).blk t).view.emb (colB j k)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have r3 : ∀ k : Fin 128, (iblk1 V c 3 t (colB j k) : EReal) = V c main_arg9 (colAt (((cfg1.win 5).blk t).view.emb j) k) := fun k => by
    show V c main_arg9 (((cfg1.win 3).blk t).view.emb (colB j k)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have r4 : (iblk1 V c 4 t (biasB j) : EReal) = V c main_v68 (biasRow (((cfg1.win 5).blk t).view.emb j)) := by
    show V c main_v68 (((cfg1.win 4).blk t).view.emb (biasB j)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  simp only [r0, r1, r2, r3, r4]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v69).slice (win1_5.rect t)).set ↔ _
  rw [View.set_slice_whole, Rect.mem_set_unit]
  exact Iff.rfl

/-- Every entry of the array lies in the block of the point its row falls in. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]
    omega

/-- The result array after the region's run is the layer of the arrays the region finds. -/
theorem final (c : Dev nD) :
    (dat1 V c).arrAt 5 cfg1.N = layer1 (V c main_v40) (V c main_v67) (V c main_arg8) (V c main_arg9) (V c main_v68) :=
  (dat1 V c).arrAt_eq_of_cover 5 _ (fun t _ => flushed_eq V c t) cover

end Cert.KernelIdeal.Blocks1

end
-- ==== Proof.KernelValue.lean ====
/-
  The kernel program's result as a function of its eleven arguments.

  Reading back from the end: the result buffer holds the second region's layer of the buffers that region finds;
  those are the first region's result (untouched by the host operations in between), the summed mean aggregates of
  that result (computed in between, with the degrees computed before the first region), two weight arguments and the
  second bias as a one-row matrix. The first region's result is its layer of the features argument, the summed mean
  aggregates of the features, two weight arguments and the first bias as a one-row matrix. A bias viewed as a one-row
  matrix and read back as a vector is the bias.
-/
import proofs.«132133_j31224412242363_1_alg».proof.Proof.Gen.KernelIdeal.Frame
import proofs.«132133_j31224412242363_1_alg».proof.Proof.Forms
import proofs.«132133_j31224412242363_1_alg».proof.Proof.Blocks0
import proofs.«132133_j31224412242363_1_alg».proof.Proof.Blocks1
import Idealize.ShloMosaic.Lib.StableHlo.Run
import Idealize.ShloMosaic.Lib.ValueLayout

set_option maxRecDepth 16384

noncomputable section

namespace Cert.KernelIdeal.HostValue

open Cert.KernelIdeal Cert.KernelIdeal.Gen Cert.KernelIdeal.Payload Cert.Hetero
open Idealize.ShloMosaic Idealize.ShloMosaic.TcCoe Idealize.SL.Sem Idealize.ShloMosaic.StableHlo Idealize.ShloMosaic.ValueIdx

/-! ## The host operations before the first region, over any contents -/

section Host

variable (W : Valuation τ sig (Elt Ideal))

/-- The first edge type's degrees. -/
theorem h0_v5 : StableHlo.after (hostOps0 (F := Ideal)) W (Proc.devRef .tc main_v5) = degree (W (Proc.devRef .tc main_arg2)) := by
  after_results_simp
  rfl
/-- The second edge type's degrees. -/
theorem h0_v11 : StableHlo.after (hostOps0 (F := Ideal)) W (Proc.devRef .tc main_v11) = degree (W (Proc.devRef .tc main_arg4)) := by
  after_results_simp
  rfl
/-- The summed mean aggregates of the features argument. -/
theorem h0_v38 : StableHlo.after (hostOps0 (F := Ideal)) W (Proc.devRef .tc main_v38)
    = aggSum (W (Proc.devRef .tc main_arg0)) (W (Proc.devRef .tc main_arg1)) (W (Proc.devRef .tc main_arg2)) (W (Proc.devRef .tc main_arg3)) (W (Proc.devRef .tc main_arg4)) := by
  after_results_simp
  rfl
/-- The first bias as a one-row matrix. -/
theorem h0_v39 : StableHlo.after (hostOps0 (F := Ideal)) W (Proc.devRef .tc main_v39)
    = shapeCast S1x128 (W (Proc.devRef .tc main_arg7)) shapeCasts_S128_S1x128 := by
  after_results_simp
  rfl
theorem h0_arg0 : StableHlo.after (hostOps0 (F := Ideal)) W (Proc.devRef .tc main_arg0) = W (Proc.devRef .tc main_arg0) := by
  after_results_simp
theorem h0_arg1 : StableHlo.after (hostOps0 (F := Ideal)) W (Proc.devRef .tc main_arg1) = W (Proc.devRef .tc main_arg1) := by
  after_results_simp
theorem h0_arg2 : StableHlo.after (hostOps0 (F := Ideal)) W (Proc.devRef .tc main_arg2) = W (Proc.devRef .tc main_arg2) := by
  after_results_simp
theorem h0_arg3 : StableHlo.after (hostOps0 (F := Ideal)) W (Proc.devRef .tc main_arg3) = W (Proc.devRef .tc main_arg3) := by
  after_results_simp
theorem h0_arg4 : StableHlo.after (hostOps0 (F := Ideal)) W (Proc.devRef .tc main_arg4) = W (Proc.devRef .tc main_arg4) := by
  after_results_simp
theorem h0_arg5 : StableHlo.after (hostOps0 (F := Ideal)) W (Proc.devRef .tc main_arg5) = W (Proc.devRef .tc main_arg5) := by
  after_results_simp
theorem h0_arg6 : StableHlo.after (hostOps0 (F := Ideal)) W (Proc.devRef .tc main_arg6) = W (Proc.devRef .tc main_arg6) := by
  after_results_simp
theorem h0_arg8 : StableHlo.after (hostOps0 (F := Ideal)) W (Proc.devRef .tc main_arg8) = W (Proc.devRef .tc main_arg8) := by
  after_results_simp
theorem h0_arg9 : StableHlo.after (hostOps0 (F := Ideal)) W (Proc.devRef .tc main_arg9) = W (Proc.devRef .tc main_arg9) := by
  after_results_simp
theorem h0_arg10 : StableHlo.after (hostOps0 (F := Ideal)) W (Proc.devRef .tc main_arg10) = W (Proc.devRef .tc main_arg10) := by
  after_results_simp

/-! ## The host operations between the regions, over any contents -/

/-- The summed mean aggregates of the first region's result, with the degrees computed earlier. -/
theorem h1_v67 : StableHlo.after (hostOps1 (F := Ideal)) W (Proc.devRef .tc main_v67)
    = (fun i => meanAgg (W (Proc.devRef .tc main_v40)) (W (Proc.devRef .tc main_arg1)) (W (Proc.devRef .tc main_arg2)) (W (Proc.devRef .tc main_v5)) i
        + meanAgg (W (Proc.devRef .tc main_v40)) (W (Proc.devRef .tc main_arg3)) (W (Proc.devRef .tc main_arg4)) (W (Proc.devRef .tc main_v11)) i) := by
  after_results_simp
  rfl
/-- The second bias as a one-row matrix. -/
theorem h1_v68 : StableHlo.after (hostOps1 (F := Ideal)) W (Proc.devRef .tc main_v68)
    = shapeCast S1x128 (W (Proc.devRef .tc main_arg10)) shapeCasts_S128_S1x128 := by
  after_results_simp
  rfl
theorem h1_v40 : StableHlo.after (hostOps1 (F := Ideal)) W (Proc.devRef .tc main_v40) = W (Proc.devRef .tc main_v40) := by
  after_results_simp
theorem h1_arg8 : StableHlo.after (hostOps1 (F := Ideal)) W (Proc.devRef .tc main_arg8) = W (Proc.devRef .tc main_arg8) := by
  after_results_simp
theorem h1_arg9 : StableHlo.after (hostOps1 (F := Ideal)) W (Proc.devRef .tc main_arg9) = W (Proc.devRef .tc main_arg9) := by
  after_results_simp

end Host

/-- A bias viewed as a one-row matrix, read back as a vector, is the bias. -/
theorem rowBias_shapeCast (b : S128.Idx → EReal) : rowBias (shapeCast S1x128 b shapeCasts_S128_S1x128) = b := by
  funext j
  obtain ⟨p, rfl⟩ : ∃ p : Fin 128, j = ix1 p := ⟨j 0, eq_ix1 j⟩
  have e : (fun a : Fin 2 => match a with
      | ⟨0, _⟩ => (⟨0, Nat.one_pos⟩ : Fin 1)
      | ⟨1, _⟩ => (⟨((ix1 p : S128.Idx) 0).val, ((ix1 p : S128.Idx) 0).isLt⟩ : Fin 128)) = (ix2 (0 : Fin 1) p : S1x128.Idx) :=
    funext fun a => by match a with | ⟨0, _⟩ => rfl | ⟨1, _⟩ => rfl
  unfold rowBias
  exact (congrArg _ e).trans (shapeCast_a_1a_apply b shapeCasts_S128_S1x128 0 p)

/-! ## The run's boundary contents, read back to the arguments -/

variable (m : (ℓ : Loc nD τ sig) → Buf (Elt Ideal) ℓ) (ρ : Dev nD → PrngReg)

/-- The first region's result: the kernel program's hidden layer of the arguments. -/
theorem hidden_eq (c : Dev nD) :
    W2 m ρ c (Proc.devRef .tc main_v40)
      = hiddenK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W2_arr m ρ c 5).trans ((Blocks0.final (V1 m ρ) c).trans ?_)
  show layer0 (StableHlo.after hostOps0 (W0 m ρ c) (Proc.devRef .tc main_arg0)) (StableHlo.after hostOps0 (W0 m ρ c) (Proc.devRef .tc main_v38))
      (StableHlo.after hostOps0 (W0 m ρ c) (Proc.devRef .tc main_arg5)) (StableHlo.after hostOps0 (W0 m ρ c) (Proc.devRef .tc main_arg6))
      (StableHlo.after hostOps0 (W0 m ρ c) (Proc.devRef .tc main_v39)) = _
  rw [h0_arg0, h0_v38, h0_arg5, h0_arg6, h0_v39]
  unfold layer0 hiddenK
  rw [rowBias_shapeCast]

/-! ### Buffers the first region does not touch, at its exit -/

theorem W2_arg1 (c : Dev nD) : W2 m ρ c (Proc.devRef .tc main_arg1) = m ((c : Thread nD τ).loc main_arg1) :=
  (W2_of_ne m ρ c main_arg1 (by decide)).trans (h0_arg1 (W0 m ρ c))
theorem W2_arg2 (c : Dev nD) : W2 m ρ c (Proc.devRef .tc main_arg2) = m ((c : Thread nD τ).loc main_arg2) :=
  (W2_of_ne m ρ c main_arg2 (by decide)).trans (h0_arg2 (W0 m ρ c))
theorem W2_arg3 (c : Dev nD) : W2 m ρ c (Proc.devRef .tc main_arg3) = m ((c : Thread nD τ).loc main_arg3) :=
  (W2_of_ne m ρ c main_arg3 (by decide)).trans (h0_arg3 (W0 m ρ c))
theorem W2_arg4 (c : Dev nD) : W2 m ρ c (Proc.devRef .tc main_arg4) = m ((c : Thread nD τ).loc main_arg4) :=
  (W2_of_ne m ρ c main_arg4 (by decide)).trans (h0_arg4 (W0 m ρ c))
theorem W2_arg8 (c : Dev nD) : W2 m ρ c (Proc.devRef .tc main_arg8) = m ((c : Thread nD τ).loc main_arg8) :=
  (W2_of_ne m ρ c main_arg8 (by decide)).trans (h0_arg8 (W0 m ρ c))
theorem W2_arg9 (c : Dev nD) : W2 m ρ c (Proc.devRef .tc main_arg9) = m ((c : Thread nD τ).loc main_arg9) :=
  (W2_of_ne m ρ c main_arg9 (by decide)).trans (h0_arg9 (W0 m ρ c))
theorem W2_arg10 (c : Dev nD) : W2 m ρ c (Proc.devRef .tc main_arg10) = m ((c : Thread nD τ).loc main_arg10) :=
  (W2_of_ne m ρ c main_arg10 (by decide)).trans (h0_arg10 (W0 m ρ c))
theorem W2_v5 (c : Dev nD) : W2 m ρ c (Proc.devRef .tc main_v5) = degree (m ((c : Thread nD τ).loc main_arg2)) :=
  (W2_of_ne m ρ c main_v5 (by decide)).trans (h0_v5 (W0 m ρ c))
theorem W2_v11 (c : Dev nD) : W2 m ρ c (Proc.devRef .tc main_v11) = degree (m ((c : Thread nD τ).loc main_arg4)) :=
  (W2_of_ne m ρ c main_v11 (by decide)).trans (h0_v11 (W0 m ρ c))

/-- The result buffer after the run: the kernel program's function of the arguments. -/
theorem result_eq (c : Dev nD) :
    W4 m ρ c (Proc.devRef .tc main_v69)
      = kernelForm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (W4_arr m ρ c 5).trans ((Blocks1.final (V3 m ρ) c).trans ?_)
  show layer1 (StableHlo.after hostOps1 (W2 m ρ c) (Proc.devRef .tc main_v40)) (StableHlo.after hostOps1 (W2 m ρ c) (Proc.devRef .tc main_v67))
      (StableHlo.after hostOps1 (W2 m ρ c) (Proc.devRef .tc main_arg8)) (StableHlo.after hostOps1 (W2 m ρ c) (Proc.devRef .tc main_arg9))
      (StableHlo.after hostOps1 (W2 m ρ c) (Proc.devRef .tc main_v68)) = _
  rw [h1_v40, h1_v67, h1_arg8, h1_arg9, h1_v68, hidden_eq m ρ c, W2_arg1, W2_arg2, W2_arg3, W2_arg4, W2_arg8, W2_arg9, W2_arg10, W2_v5, W2_v11]
  unfold layer1 kernelForm aggSum
  rw [rowBias_shapeCast]

end Cert.KernelIdeal.HostValue

end
-- ==== Proof.RefValue.lean ====
/-
  The reference's result as a function of its eleven arguments.

  The reference's composed term is two split layers, the first rectified. Each piece of the term is named here over
  arbitrary operands: the mean aggregation is the very chain of host operations the kernel program spells (its
  dimension-number records are the same data); a product with a weight matrix read at an entry is the row against the
  column; the bias spread over the rows read at an entry is the bias of the column. With the pieces named, the whole
  term is the split form.
-/
import proofs.«132133_j31224412242363_1_alg».proof.Proof.Gen.ReferenceIdeal.Run
import proofs.«132133_j31224412242363_1_alg».proof.Proof.Gen.ReferenceIdeal.Read
import proofs.«132133_j31224412242363_1_alg».proof.Proof.Gen.KernelIdeal
import proofs.«132133_j31224412242363_1_alg».proof.Proof.Forms

noncomputable section

open scoped BigOperators

namespace Cert.ReferenceIdeal.RefValue

open Cert.ReferenceIdeal Cert.ReferenceIdeal.Gen Cert.Hetero
open Idealize.ShloMosaic Idealize.ShloMosaic.TcCoe Idealize.SL.Sem Idealize.ShloMosaic.StableHlo

/-- The reference's mean aggregation is the shared one. -/
theorem agg_ref (x : FVec Ideal S50000x128 .f32) (src dst : IVec S500000 32) :
    Host.divf (Host.scatterAdd scatter_S50000x128_S500000x1_S500000x128_1_0_0_1 (broadcastInDim S50000x128 ![] bcast_S_S50000x128 (constant (F := Ideal) S_ .f32 0x00000000#32)) (broadcastInDim S500000x1 ![0] bcast_S500000_S500000x1_0 dst) (Host.gather gather_S50000x128_S500000x1_S500000x128_1_0_n_n_0_1_1128 x (broadcastInDim S500000x1 ![0] bcast_S500000_S500000x1_0 (select (cmpi .slt src (broadcastInDim S500000 ![] bcast_S_S500000 (constantI S_ 32 0#32))) (addi src (broadcastInDim S500000 ![] bcast_S_S500000 (constantI S_ 32 50000#32))) src)))) (broadcastInDim S50000x128 ![0, 1] bcast_S50000x1_S50000x128_0_1 (broadcastInDim S50000x1 ![0] bcast_S50000_S50000x1_0 (maximumf (Host.scatterAdd scatter_S50000_S500000x1_S500000_n_0_0_1 (broadcastInDim S50000 ![] bcast_S_S50000 (constant (F := Ideal) S_ .f32 0x00000000#32)) (broadcastInDim S500000x1 ![0] bcast_S500000_S500000x1_0 dst) (broadcastInDim S500000 ![] bcast_S_S500000 (constant (F := Ideal) S_ .f32 0x3F800000#32))) (broadcastInDim S50000 ![] bcast_S_S50000 (constant (F := Ideal) S_ .f32 0x3F800000#32)))))
      = meanAgg x src dst (degree dst) := rfl

/-- A product with a weight matrix at an entry: the row against the column. -/
theorem dot_ref (x : FVec Ideal S50000x128 .f32) (w : FVec Ideal S128x128 .f32) :
    Host.dotGeneral dot_S50000x128_S128x128_S50000x128_1_0_0_1_n_n none x w = prod x w := by
  funext i
  refine (Cert.ReferenceIdeal.Read.val_main_v19_apply x w i).trans ?_
  unfold prod
  refine Finset.sum_congr rfl fun k _ => ?_
  have el : Cert.ReferenceIdeal.Read.lidx_main_v19 i k = rowAt i k := funext fun a => by
    match a with
    | ⟨0, _⟩ => rfl
    | ⟨1, _⟩ => rfl
  have er : Cert.ReferenceIdeal.Read.ridx_main_v19 i k = colAt i k := funext fun a => by
    match a with
    | ⟨0, _⟩ => rfl
    | ⟨1, _⟩ => rfl
  rw [el, er]

/-- The bias spread over the rows, at an entry: the bias of the entry's column. -/
theorem bias_ref (b : FVec Ideal S128 .f32) (i : S50000x128.Idx) :
    (broadcastInDim S50000x128 ![0, 1] bcast_S1x128_S50000x128_0_1 (broadcastInDim S1x128 ![1] bcast_S128_S1x128_1 b)) i = b (biasAt i) := by
  refine (Cert.ReferenceIdeal.Read.val_main_v23_apply (F := Ideal) b i).trans
    ((Cert.ReferenceIdeal.Read.val_main_v22_apply (F := Ideal) b (Cert.ReferenceIdeal.Read.idx_main_v23 i)).trans ?_)
  refine congrArg b (funext fun a => ?_)
  match a with
  | ⟨0, _⟩ => rfl

/-- The reference's pair of per-edge-type layers is the split layer. -/
theorem layer_ref (x p q : FVec Ideal S50000x128 .f32) (ws wn : FVec Ideal S128x128 .f32) (b : FVec Ideal S128 .f32) :
    addf (addf (addf (Host.dotGeneral dot_S50000x128_S128x128_S50000x128_1_0_0_1_n_n none x ws) (Host.dotGeneral dot_S50000x128_S128x128_S50000x128_1_0_0_1_n_n none p wn)) (broadcastInDim S50000x128 ![0, 1] bcast_S1x128_S50000x128_0_1 (broadcastInDim S1x128 ![1] bcast_S128_S1x128_1 b))) (addf (addf (Host.dotGeneral dot_S50000x128_S128x128_S50000x128_1_0_0_1_n_n none x ws) (Host.dotGeneral dot_S50000x128_S128x128_S50000x128_1_0_0_1_n_n none q wn)) (broadcastInDim S50000x128 ![0, 1] bcast_S1x128_S50000x128_0_1 (broadcastInDim S1x128 ![1] bcast_S128_S1x128_1 b)))
      = split x p q ws wn b := by
  funext i
  show (Host.dotGeneral dot_S50000x128_S128x128_S50000x128_1_0_0_1_n_n none x ws i + Host.dotGeneral dot_S50000x128_S128x128_S50000x128_1_0_0_1_n_n none p wn i + (broadcastInDim S50000x128 ![0, 1] bcast_S1x128_S50000x128_0_1 (broadcastInDim S1x128 ![1] bcast_S128_S1x128_1 b)) i)
      + (Host.dotGeneral dot_S50000x128_S128x128_S50000x128_1_0_0_1_n_n none x ws i + Host.dotGeneral dot_S50000x128_S128x128_S50000x128_1_0_0_1_n_n none q wn i + (broadcastInDim S50000x128 ![0, 1] bcast_S1x128_S50000x128_0_1 (broadcastInDim S1x128 ![1] bcast_S128_S1x128_1 b)) i) = _
  rw [dot_ref, dot_ref, dot_ref, bias_ref]
  rfl

/-- The reference's rectifier is the maximum with zero. -/
theorem relu_ref (y : FVec Ideal S50000x128 .f32) :
    maximumf y (broadcastInDim S50000x128 ![] bcast_S_S50000x128 (constant (F := Ideal) S_ .f32 0x00000000#32)) = relu y := rfl

set_option maxRecDepth 8192 in
/-- The reference's result: the split form of the arguments. -/
theorem result_eq (m : (ℓ : Loc nD τ sig) → Buf (Elt Ideal) ℓ) (c : Dev nD) :
    Cert.ReferenceIdeal.Value.res_main_v102 (F := Ideal) m c
      = refForm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v102
  rw [agg_ref, agg_ref, agg_ref, agg_ref, layer_ref, layer_ref, relu_ref]
  rfl

end Cert.ReferenceIdeal.RefValue

end
-- ==== Proof.Finite.lean ====
/-
  The precondition, read back: every entry of every float argument is a real number.

  The precondition is a conjunction, over the seven float arguments, of "every entry's absolute value is below
  +infinity". On the extended reals an absolute value below the top element leaves only real numbers: the absolute
  value of either infinity is the top element itself.
-/
import proofs.«132133_j31224412242363_1_alg».proof.Pre_finite_inputs
import proofs.«132133_j31224412242363_1_alg».proof.Proof.Gen.Pre_finite_inputs
import proofs.«132133_j31224412242363_1_alg».proof.Proof.Spec
import Idealize.ShloMosaic.Lib.ReduceAll
import Idealize.ShloMosaic.Lib.ValueIdx
import Idealize.ShloMosaic.PureOps.Ideal.Laws

noncomputable section

namespace Cert.Pre_finite_inputs.Real

open Cert.Pre_finite_inputs Cert.Hetero Idealize.ShloMosaic

instance : Subsingleton S_.Idx := ⟨fun a b => funext fun d => d.elim0⟩

/-- The pattern of +infinity denotes the top element. -/
theorem ofBits_inf : Ideal.ofBits .f32 0x7F800000#32 = ⊤ := by
  simp [Ideal.ofBits, Ideal.ieee]

/-- An extended real whose absolute value compares below +infinity is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have h' : Ideal.cmp .olt (max x (-x)) (Ideal.ofBits .f32 0x7F800000#32) = 1#1 := h
  rw [ofBits_inf] at h'
  induction x using EReal.rec with
  | bot => exfalso; revert h'; simp [Ideal.cmp]
  | coe r => exact ⟨r, rfl⟩
  | top => exfalso; revert h'; simp [Ideal.cmp]

/-- One conjunct of the precondition: if "all entries have absolute value below +infinity" came out true, every entry is real. -/
theorem allReal_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu ValueIdx.ix0 = 1#1) :
    AllReal a := fun i =>
  isReal_of_abs_lt (a i) (Host.reduce_andi_all _ _ hr hu ValueIdx.ix0 e i)

variable [Cert.Pre_finite_inputs.Facts]
open Cert.Pre_finite_inputs.Facts

/-- Under the precondition every float argument has real entries only. -/
theorem args_allReal (a0 : FVec Ideal S50000x128 .f32) (a1 a2 a3 a4 : IVec S500000 32) (a5 a6 : FVec Ideal S128x128 .f32)
    (a7 : FVec Ideal S128 .f32) (a8 a9 : FVec Ideal S128x128 .f32) (a10 : FVec Ideal S128 .f32)
    (h : Cert.Pre_finite_inputs.fn (F := Ideal) a0 a1 a2 a3 a4 a5 a6 a7 a8 a9 a10 = fun _ => 1#1) :
    AllReal a0 ∧ AllReal a5 ∧ AllReal a6 ∧ AllReal a7 ∧ AllReal a8 ∧ AllReal a9 ∧ AllReal a10 := by
  have h0 := congrFun h ValueIdx.ix0
  dsimp only [fn, fn_part1] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨e0, e5⟩ := IntOp.andi_eq_one.1 h0
  exact ⟨allReal_of_all a0 _ _ _ e0, allReal_of_all a5 _ _ _ e5, allReal_of_all a6 _ _ _ e6, allReal_of_all a7 _ _ _ e7,
    allReal_of_all a8 _ _ _ e8, allReal_of_all a9 _ _ _ e9, allReal_of_all a10 _ _ _ e10⟩

end Cert.Pre_finite_inputs.Real

end
-- ==== Proof.lean ====
/-
  A two-layer graph convolution over two edge types with shared weights: the kernel program fuses the two edge types'
  layers into one (twice the self product, the neighbour product of the summed mean aggregates, twice the bias) and
  runs each fused layer as a kernel over blocks of node rows; the reference adds the two per-edge-type layers.

  Frames: the two kernel programs' are the generated ones; the reference's is its generated run with the result dropped.
  The idealization rewrote nothing, so there is nothing to preserve.
  Value: the kernel program's run ends with the result buffer at the second region's write-backs, which read back to
  the fused form of the arguments; the reference's run ends at the split form of the arguments. The precondition
  makes every float argument real, and on real arguments the two forms are one function: the neighbour product
  distributes over the sum of the two aggregates, and the mean aggregation keeps real numbers real (every gathered
  entry is an entry of the source, a segment sum adds finitely many of them, a degree is a real number at least one).
-/
import proofs.«132133_j31224412242363_1_alg».proof.Defs
import proofs.«132133_j31224412242363_1_alg».proof.Proof.Gen.Kernel
import proofs.«132133_j31224412242363_1_alg».proof.Proof.Gen.Kernel.Skeleton
import proofs.«132133_j31224412242363_1_alg».proof.Proof.Gen.Kernel.Launch
import proofs.«132133_j31224412242363_1_alg».proof.Proof.Gen.Kernel.Points
import proofs.«132133_j31224412242363_1_alg».proof.Proof.Gen.Kernel.Frame
import proofs.«132133_j31224412242363_1_alg».proof.Proof.Gen.KernelIdeal
import proofs.«132133_j31224412242363_1_alg».proof.Proof.Gen.KernelIdeal.Skeleton
import proofs.«132133_j31224412242363_1_alg».proof.Proof.Gen.KernelIdeal.Launch
import proofs.«132133_j31224412242363_1_alg».proof.Proof.Gen.KernelIdeal.Points
import proofs.«132133_j31224412242363_1_alg».proof.Proof.Gen.KernelIdeal.Frame
import proofs.«132133_j31224412242363_1_alg».proof.Proof.Gen.ReferenceIdeal
import proofs.«132133_j31224412242363_1_alg».proof.Proof.Gen.Pre_finite_inputs
import proofs.«132133_j31224412242363_1_alg».proof.Proof.Gen.ReferenceIdeal.Run
import proofs.«132133_j31224412242363_1_alg».proof.Proof.Gen.ReferenceIdeal.Read
import proofs.«132133_j31224412242363_1_alg».proof.Proof.KernelRun
import proofs.«132133_j31224412242363_1_alg».proof.Proof.KernelValue
import proofs.«132133_j31224412242363_1_alg».proof.Proof.RefValue
import proofs.«132133_j31224412242363_1_alg».proof.Proof.Finite
import proofs.«132133_j31224412242363_1_alg».proof.Proof.Forms
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result at one function of the arguments: the kernel program's fused form, which on the
    real arguments the precondition leaves is the reference's split form. -/
theorem algebraic : Cert.algebraic_KernelIdeal_ReferenceIdeal := by
  intro m ρ m' ρ' hpre hagree
  refine ⟨fun c => Cert.Hetero.kernelForm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HostValue.result_eq m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq m' c]
    obtain ⟨e0, e1, e2, e3, e4, e5, e6, e7, e8, e9, e10⟩ := hagree c
    rw [e0, e1, e2, e3, e4, e5, e6, e7, e8, e9, e10]
    obtain ⟨r0, r5, r6, r7, r8, r9, r10⟩ := Cert.Pre_finite_inputs.Real.args_allReal _ _ _ _ _ _ _ _ _ _ _ (hpre c)
    exact (Cert.Hetero.kernelForm_eq_refForm r0 _ _ _ _ r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
